-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S8192x4096 : Shape := ⟨2, ![8192, 4096]⟩
abbrev S128x4096 : Shape := ⟨2, ![128, 4096]⟩
abbrev S1024x4096 : Shape := ⟨2, ![1024, 4096]⟩
abbrev S1x1024 : Shape := ⟨2, ![1, 1024]⟩
abbrev S128x1024 : Shape := ⟨2, ![128, 1024]⟩
abbrev S128 : Shape := ⟨1, ![128]⟩
abbrev S128x1 : Shape := ⟨2, ![128, 1]⟩

abbrev nBuf : Space → Nat
  | .hbm => 34
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S1x4096, .f32⟩
  | .hbm, ⟨31, _⟩ => ⟨S8192x4096, .f32⟩
  | .hbm, ⟨32, _⟩ => ⟨S8192x4096, .f32⟩
  | .hbm, ⟨33, _⟩ => ⟨S4x2048x4096, .f32⟩
  | .local _ .vmem, ⟨0, _⟩ => ⟨S128x4096, .f32⟩
  | .local _ .vmem, ⟨1, _⟩ => ⟨S128x4096, .f32⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S128x1024, .f32⟩
  | .local _ .vmem, ⟨7, _⟩ => ⟨S128x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bitsLt_bf16_f32 : FTy.bits .bf16 < FTy.bits .f32
  shapeCasts_S4096x1_S4096 : S4096x1.ShapeCasts S4096
  bcast_S_S4096 : S_.BroadcastsInDim S4096 (![] : Fin 0 → Fin S4096.rank)
  shapeCasts_S4096_S1x4096 : S4096.ShapeCasts S1x4096
  shapeCasts_S4x2048x4096_S8192x4096 : S4x2048x4096.ShapeCasts S8192x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  reduces_S128x4096_S128 : S128x4096.Reduces [1] S128
  shapeCasts_S128_S128x1 : S128.ShapeCasts S128x1
  broadcasts_S128x1_S128x4096 : S128x1.Broadcasts S128x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S128x1_S128x1024 : S128x1.Broadcasts S128x1024
  broadcasts_S1x1024_S128x1024 : S1x1024.Broadcasts S128x1024
  inb_S128x1024_S128x1024_0_0 : ∀ a, (![0, 0] : Fin 2 → Nat) a + S128x1024.size a ≤ S128x1024.size a
  h_S128x1024 : 0 < S128x1024.numel
  shapeCasts_S8192x4096_S4x2048x4096 : S8192x4096.ShapeCasts S4x2048x4096
  dot_S128x4096_S1024x4096_S128x1024_1_1_0_0_n_n_wf : DotDims.WF S128x4096 S1024x4096 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S8192x4096.size a
  hwx0_3 : ∀ i : grid0.Coords, EltTy.bits .f32 = 32 ∨ (Rect.block (s := S8192x4096) S128x1024.size (cc0_transform_3 i) (hinb0_3 i)).WholeWords (EltTy.packing .f32)

variable [Facts₀]

def dot_S128x4096_S1024x4096_S128x1024_1_1_0_0_n_n : DotDims S128x4096 S1024x4096 S128x1024 where
  lhsContracting := [1]
  rhsContracting := [1]
  lhsNonContracting := [0]
  rhsNonContracting := [0]
  lhsBatch := []
  rhsBatch := []
  wf := dot_S128x4096_S1024x4096_S128x1024_1_1_0_0_n_n_wf

abbrev win0_0 : Pipeline.Window sig grid0 :=
  Pipeline.Window.ofSpec (Memref.whole main_v17) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 62
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4x2048x4096, .f32⟩
  | .hbm, ⟨27, _⟩ => ⟨S_, .f32⟩
  | .hbm, ⟨28, _⟩ => ⟨S4x2048, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x4096, .f32⟩
  | .hbm, ⟨34, _⟩ => ⟨S4x2048x4096, .f32⟩
  | .hbm, ⟨35, _⟩ => ⟨S_, .f32⟩
  | .hbm, ⟨36, _⟩ => ⟨S4x2048x4096, .f32⟩
  | .hbm, ⟨37, _⟩ => ⟨S4x2048x4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4x2048x4096, .f32⟩
  | .hbm, ⟨42, _⟩ => ⟨S4x2048x4096, .f32⟩
  | .hbm, ⟨43, _⟩ => ⟨S_, .f32⟩
  | .hbm, ⟨44, _⟩ => ⟨S4x2048x4096, .f32⟩
  | .hbm, ⟨45, _⟩ => ⟨S4x2048x4096, .f32⟩
  | .hbm, ⟨46, _⟩ => ⟨S4x2048x4096, .f32⟩
  | .hbm, ⟨47, _⟩ => ⟨S4x2048x4096, .f32⟩
  | .hbm, ⟨48, _⟩ => ⟨S4x2048x4096, .f32⟩
  | .hbm, ⟨49, _⟩ => ⟨S4x2048x4096, .f32⟩
  | .hbm, ⟨50, _⟩ => ⟨S4096, .f32⟩
  | .hbm, ⟨51, _⟩ => ⟨S1x1x4096, .f32⟩
  | .hbm, ⟨52, _⟩ => ⟨S4x2048x4096, .f32⟩
  | .hbm, ⟨53, _⟩ => ⟨S4x2048x4096, .f32⟩
  | .hbm, ⟨54, _⟩ => ⟨S4x2048x4096, .f32⟩
  | .hbm, ⟨55, _⟩ => ⟨S_, .f32⟩
  | .hbm, ⟨56, _⟩ => ⟨S4x2048x4096, .f32⟩
  | .hbm, ⟨57, _⟩ => ⟨S4x2048x4096, .f32⟩
  | .hbm, ⟨58, _⟩ => ⟨S4x2048x4096, .f32⟩
  | .hbm, ⟨59, _⟩ => ⟨S1x1x4096, .f32⟩
  | .hbm, ⟨60, _⟩ => ⟨S4x2048x4096, .f32⟩
  | .hbm, ⟨61, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_cst_8 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_9 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S4x2048x4096_S4x2048_d2 : S4x2048x4096.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  shapeCasts_S4096x1_S4096 : S4096x1.ShapeCasts S4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Quant.lean ====
/-
  Absmax quantization of a row, and of a linear layer's output entry, over the extended reals.

  A row `x : Fin n → EReal` of activations is scaled by `127 / s`, where `s = max_k |x k| + ε` is the row's
  absolute maximum plus a positive constant, clamped to `[-128, 127]` and rounded to the nearest integer (ties to
  even). One program writes the scaled value `x k · (127 / s)`, the other `(x k / s) · 127`, and wraps the rounded
  value in a straight-through form `a + (round(clamp a) − a)`. For a row of real numbers `s` is a positive real, both
  scalings are the same real, and `a + (c − a) = c` whenever `a` is real: the two quantized rows agree entry by
  entry. The same cancellation applies to the quantized weights `wn + (wq − wn)` when `wn` is real. The output
  entry multiplies the product of the two quantized rows by the row scale, the weight scale, a channel factor and
  `1 / 127`, grouped differently in the two programs; since `127 ≠ 0` the quotient by it is a product with its
  inverse and the two groupings agree by commutativity and associativity of the product alone.
-/
import Idealize.ShloMosaic.PureOps.Ideal.Laws

noncomputable section

namespace Cert.Quant

open Idealize.ShloMosaic

/-! ## The constants -/

/-- The pattern of `-∞`, the initial value of a row maximum. -/
abbrev NegInf : EReal := Ideal.ofBits .f32 0xFF800000#32
/-- The positive constant added to a scale. -/
abbrev Eps : EReal := Ideal.ofBits .f32 0x322BCC77#32
/-- `127.0`. -/
abbrev C127 : EReal := Ideal.ofBits .f32 0x42FE0000#32
/-- `-128.0`. -/
abbrev Cm128 : EReal := Ideal.ofBits .f32 0xC3000000#32
/-- `4096.0`. -/
abbrev C4096 : EReal := Ideal.ofBits .f32 0x45800000#32
/-- Rounding to the nearest integer, ties to even, the infinities fixed. -/
abbrev rnd : EReal → EReal := Ideal.liftRound Ideal.roundHalfEven

theorem negInf_eq : NegInf = ⊥ := by
  simp [NegInf, Ideal.ofBits, Ideal.ieee]

theorem c127_eq : C127 = ((127 : ℝ) : EReal) := by
  simp [C127, Ideal.ofBits, Ideal.ieee, -EReal.coe_mul]; norm_num

theorem c4096_eq : C4096 = ((4096 : ℝ) : EReal) := by
  simp [C4096, Ideal.ofBits, Ideal.ieee, -EReal.coe_mul]; norm_num

theorem eps_pos : ∃ e : ℝ, 0 < e ∧ Eps = (e : EReal) := by
  refine ⟨(1 * ((2 ^ 23 + 2870391 : ℕ) : ℝ) * (2 : ℝ) ^ ((100 : ℤ) - (2 ^ (8 - 1) - 1) - 23)), by positivity, ?_⟩
  simp [Eps, Ideal.ofBits, Ideal.ieee, -EReal.coe_mul]

/-! ## Real values among the extended reals -/

/-- An extended real that is a real number. -/
def IsReal (x : EReal) : Prop := ∃ r : ℝ, x = (r : EReal)

theorem IsReal.coe (r : ℝ) : IsReal (r : EReal) := ⟨r, rfl⟩

theorem IsReal.add {a b : EReal} (ha : IsReal a) (hb : IsReal b) : IsReal (a + b) := by
  obtain ⟨r, rfl⟩ := ha; obtain ⟨t, rfl⟩ := hb; exact ⟨r + t, (EReal.coe_add r t).symm⟩

theorem IsReal.mul {a b : EReal} (ha : IsReal a) (hb : IsReal b) : IsReal (a * b) := by
  obtain ⟨r, rfl⟩ := ha; obtain ⟨t, rfl⟩ := hb; exact ⟨r * t, (EReal.coe_mul r t).symm⟩

/-- The quotient of a real by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- Straight-through cancellation: for a real `a`, `a + (c − a) = c` at every extended real `c`. -/
theorem add_sub_cancel_real {a : EReal} (ha : IsReal a) (c : EReal) : a + (c - a) = c := by
  obtain ⟨r, rfl⟩ := ha
  induction c using EReal.rec with
  | bot => simp
  | top => simp
  | coe t => rw [← EReal.coe_sub, ← EReal.coe_add]; congr 1; ring

/-! ## The scale of a row -/

/-- A row's scale: the maximum of the entries' absolute values, from `-∞`, plus the constant. -/
def rowScale {n : Nat} (xr : Fin n → EReal) : EReal :=
  (Finset.univ.fold max NegInf fun k => max (xr k) (-(xr k))) + Eps

/-- The scale of a nonempty row of reals is a positive real. -/
theorem rowScale_pos {n : Nat} (hn : 0 < n) (xr : Fin n → EReal) (hx : ∀ k, IsReal (xr k)) :
    ∃ s : ℝ, 0 < s ∧ rowScale xr = (s : EReal) := by
  obtain ⟨e, he, hE⟩ := eps_pos
  have habs : ∀ k, ∃ r : ℝ, 0 ≤ r ∧ max (xr k) (-(xr k)) = (r : EReal) := fun k => by
    obtain ⟨r, hr⟩ := hx k
    refine ⟨max r (-r), le_max_iff.2 (by rcases le_total 0 r with h | h; exact Or.inl h; exact Or.inr (by linarith)), ?_⟩
    rw [hr, ← EReal.coe_neg]; exact (EReal.coe_strictMono.monotone.map_max).symm
  have hlt : (Finset.univ.fold max NegInf fun k => max (xr k) (-(xr k))) < ⊤ := by
    rw [Finset.fold_max_lt]
    refine ⟨by rw [negInf_eq]; exact bot_lt_top, fun k _ => ?_⟩
    obtain ⟨r, _, hr⟩ := habs k
    rw [hr]; exact EReal.coe_lt_top r
  have hge : (0 : EReal) ≤ Finset.univ.fold max NegInf fun k => max (xr k) (-(xr k)) := by
    rw [Finset.le_fold_max]
    refine Or.inr ⟨⟨0, hn⟩, Finset.mem_univ _, ?_⟩
    obtain ⟨r, hr0, hr⟩ := habs ⟨0, hn⟩
    rw [hr]; exact_mod_cast hr0
  set M := Finset.univ.fold max NegInf fun k => max (xr k) (-(xr k)) with hM
  have hMr : M = ((M.toReal : ℝ) : EReal) :=
    (EReal.coe_toReal (ne_of_lt hlt) (ne_of_gt (lt_of_lt_of_le EReal.bot_lt_zero hge))).symm
  have hM0 : 0 ≤ M.toReal := EReal.toReal_nonneg hge
  refine ⟨M.toReal + e, by linarith, ?_⟩
  unfold rowScale
  rw [← hM, hE, hMr, EReal.toReal_coe, ← EReal.coe_add]

/-! ## The two quantized rows -/

/-- The quantized activation, scaled as `x · (127 / s)`. -/
def actK {n : Nat} (xr : Fin n → EReal) (k : Fin n) : EReal :=
  rnd (min C127 (max Cm128 (xr k * Ideal.div C127 (rowScale xr))))

/-- The quantized activation in straight-through form, scaled as `(x / s) · 127`. -/
def actR {n : Nat} (xr : Fin n → EReal) (k : Fin n) : EReal :=
  Ideal.div (xr k) (rowScale xr) * C127
    + (rnd (min C127 (max Cm128 (Ideal.div (xr k) (rowScale xr) * C127))) - Ideal.div (xr k) (rowScale xr) * C127)

/-- On a nonempty row of reals the two agree. -/
theorem actR_eq_actK {n : Nat} (hn : 0 < n) (xr : Fin n → EReal) (hx : ∀ k, IsReal (xr k)) (k : Fin n) :
    actR xr k = actK xr k := by
  obtain ⟨s, hs, hS⟩ := rowScale_pos hn xr hx
  obtain ⟨r, hr⟩ := hx k
  have hs0 : s ≠ 0 := ne_of_gt hs
  have e1 : Ideal.div (xr k) (rowScale xr) * C127 = ((r / s * 127 : ℝ) : EReal) := by
    rw [hS, hr, div_coe_coe r hs0, c127_eq, ← EReal.coe_mul]
  have e2 : xr k * Ideal.div C127 (rowScale xr) = ((r / s * 127 : ℝ) : EReal) := by
    rw [hS, hr, c127_eq, div_coe_coe 127 hs0, ← EReal.coe_mul]; congr 1; ring
  unfold actR actK
  rw [e2, e1]
  exact add_sub_cancel_real (IsReal.coe _) _

/-! ## An output entry -/

/-- An output entry as one program groups it: the product of the quantized rows, times the row scale, times the
    channel's combined factor. -/
def entryK {n : Nat} (xr wq : Fin n → EReal) (sa : EReal) : EReal :=
  ((∑ k, actK xr k * wq k) * rowScale xr) * sa

/-- The same entry as the other groups it: straight-through forms of both quantized rows, the weight scale times the
    row scale over `127`, then the channel factor. -/
def entryR {n : Nat} (xr wn wq : Fin n → EReal) (ws α : EReal) : EReal :=
  ((∑ k, actR xr k * (wn k + (wq k - wn k))) * Ideal.div (ws * rowScale xr) C127) * α

theorem c127_ne_zero : C127 ≠ 0 := by
  rw [c127_eq]; exact_mod_cast (by norm_num : (127 : ℝ) ≠ 0)

/-- Regrouping the scales: the quotient by `127` is a product with its inverse. -/
theorem rescale_eq (D s ws α : EReal) : (D * s) * Ideal.div (ws * α) C127 = (D * Ideal.div (ws * s) C127) * α := by
  unfold Ideal.div
  rw [if_neg c127_ne_zero, if_neg c127_ne_zero]
  ac_rfl

/-- For a nonempty row of real activations and a row of real scaled weights the two groupings agree. -/
theorem entry_eq {n : Nat} (hn : 0 < n) (xr wn wq : Fin n → EReal) (hx : ∀ k, IsReal (xr k)) (hwn : ∀ k, IsReal (wn k))
    (ws α : EReal) : entryK xr wq (Ideal.div (ws * α) C127) = entryR xr wn wq ws α := by
  unfold entryK entryR
  rw [rescale_eq]
  have hsum : (∑ k, actK xr k * wq k) = ∑ k, actR xr k * (wn k + (wq k - wn k)) :=
    Finset.sum_congr rfl fun k _ => by rw [actR_eq_actK hn xr hx k, add_sub_cancel_real (hwn k)]
  rw [hsum]

end Cert.Quant

end
-- ==== Proof.Finite.lean ====
/-
  The precondition, read back: every entry of the three input arrays is a real number.

  The precondition is the conjunction, over the three arrays, of "every entry's absolute value is below `+∞`". An
  extended real whose absolute value `max x (−x)` is below `+∞` is neither infinity, so it is a real number.
-/
import proofs.«116073_j63204738728221_1_alg».proof.Proof.Gen.Pre_finite_inputs
import proofs.«116073_j63204738728221_1_alg».proof.Proof.Quant
import Idealize.ShloMosaic.Lib.ReduceAll
import Idealize.ShloMosaic.Lib.ValueIdx

noncomputable section

namespace Cert.Finite

open Idealize.ShloMosaic Cert.Pre_finite_inputs Cert.Quant

instance : Subsingleton S_.Idx := ⟨fun a b => funext fun d => d.elim0⟩

/-- An extended real whose absolute value compares below the pattern of `+∞` is a real number. -/
theorem isReal_of_abs_lt_top (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Under the precondition every entry of each input array is real. -/
theorem real_of_pre (x0 : FVec Ideal S4x2048x4096 .f32) (x1 : FVec Ideal S4096x4096 .f32) (x2 : FVec Ideal S4096 .f32)
    (h : Cert.Pre_finite_inputs.fn (F := Ideal) x0 x1 x2 = fun _ => 1#1) :
    (∀ i, IsReal (x0 i)) ∧ (∀ i, IsReal (x1 i)) ∧ (∀ i, IsReal (x2 i)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · exact isReal_of_abs_lt_top _ (Host.reduce_andi_all _ _ _ _ _ h0' i)
  · exact isReal_of_abs_lt_top _ (Host.reduce_andi_all _ _ _ _ _ h1 i)
  · exact isReal_of_abs_lt_top _ (Host.reduce_andi_all _ _ _ _ _ h2 i)

end Cert.Finite

end
-- ==== Proof.LibLastAxisDot.lean ====
/-
  The matrix product that contracts the LAST axis of both operands, read at an entry.

  For the dimension numbers of an `M×K` by `N×K` product (`DotDims.transposedRhs M K N`: contract axis 1 of both
  operands, no batch axis — a product with the transposed right operand) the result's entry `(p, q)` is, over the
  extended reals, `∑ k : Fin K, lhs (p, k) * rhs (q, k)`, for a `tpu.matmul` into the zero accumulator. The sum over
  the product's own one-axis contraction index is re-indexed to a sum over `Fin K`, and the two operand indices are
  computed once, for every `M`, `K`, `N`.
-/
import Idealize.ShloMosaic.Lib.ValueIdx
import Idealize.ShloMosaic.PureOps.Ideal.Laws

noncomputable section

/-! ## The product that contracts the last axis of both operands, read at an entry

For the dimension numbers of an `M×K` by `N×K` product (contract axis 1 of both, no batch axis) the result's entry
`(p, q)` is `∑ k, lhs (p, k) * rhs (q, k)`. -/

namespace Cert.Lib.LastAxisDot

open Idealize.ShloMosaic Idealize.ShloMosaic.ValueIdx

variable {M K N : Nat}

/-- The contraction index is its one coordinate, a number below `K`. -/
abbrev kEquiv (M K N : Nat) : (DotDims.transposedRhs M K N).contr.Idx ≃ Fin K :=
  contrEquiv1 (DotDims.transposedRhs M K N) K rfl rfl

/-- The left operand's row coordinate is the result's row. -/
theorem lhs_axis0 (j : (⟨2, ![M, N]⟩ : Shape).Idx) (c : (DotDims.transposedRhs M K N).contr.Idx) :
    ((DotDims.transposedRhs M K N).lhsIdx j c 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.2 rfl)]
  rfl

/-- The left operand's column coordinate is the contraction position. -/
theorem lhs_axis1 (j : (⟨2, ![M, N]⟩ : Shape).Idx) (c : (DotDims.transposedRhs M K N).contr.Idx) :
    ((DotDims.transposedRhs M K N).lhsIdx j c 1).val = (c ⟨0, Nat.one_pos⟩).val :=
  (DotDims.transposedRhs M K N).lhsIdx_val_of_single rfl j c

/-- The right operand's row coordinate is the result's column. -/
theorem rhs_axis0 (j : (⟨2, ![M, N]⟩ : Shape).Idx) (c : (DotDims.transposedRhs M K N).contr.Idx) :
    ((DotDims.transposedRhs M K N).rhsIdx j c 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.2 rfl)]
  rfl

/-- The right operand's column coordinate is the contraction position. -/
theorem rhs_axis1 (j : (⟨2, ![M, N]⟩ : Shape).Idx) (c : (DotDims.transposedRhs M K N).contr.Idx) :
    ((DotDims.transposedRhs M K N).rhsIdx j c 1).val = (c ⟨0, Nat.one_pos⟩).val :=
  (DotDims.transposedRhs M K N).rhsIdx_val_of_single rfl j c

/-- At result entry `(p, q)` and contraction position `k` the left operand is read at `(p, k)`. -/
theorem lhsIdx_eq (p : Fin M) (q : Fin N) (k : Fin K) :
    (DotDims.transposedRhs M K N).lhsIdx (ix2 p q) ((kEquiv M K N).symm k) = ix2 p k := by
  have hk := contrEquiv1_symm_val (DotDims.transposedRhs M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(q, k)`. -/
theorem rhsIdx_eq (p : Fin M) (q : Fin N) (k : Fin K) :
    (DotDims.transposedRhs M K N).rhsIdx (ix2 p q) ((kEquiv M K N).symm k) = ix2 q k := by
  have hk := contrEquiv1_symm_val (DotDims.transposedRhs M K N) K rfl rfl k
  exact funext fun a => Fin.ext (by
    match a with
    | ⟨0, _⟩ => exact rhs_axis0 _ _
    | ⟨1, _⟩ => exact (rhs_axis1 _ _).trans hk)

/-- A `tpu.matmul` with these dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  rw [Ideal.matmul_constant_zero_apply, ← Equiv.sum_comp (kEquiv M K N).symm]
  refine Finset.sum_congr rfl fun k _ => ?_
  rw [lhsIdx_eq, rhsIdx_eq]

end Cert.Lib.LastAxisDot

end
-- ==== Proof.LibColumn.lean ====
/-
  Column forms of layout operations, and a row maximum, read at an index given by coordinates.

  A vector of length `a` cast to an `a × 1` column reads, at `(p, 0)`, the vector at `p`; an `a × 1` column broadcast
  to `a × b` reads, at `(p, q)`, the column at `p`; and a maximum over the second axis of an `a × b` array is, at row
  `p`, the fold of `max` from the initial value over the row's entries.
-/
import Idealize.ShloMosaic.Lib.ValueLayout
import Idealize.ShloMosaic.Lib.ValueIdx
import Idealize.ShloMosaic.PureOps.Ideal.Laws

noncomputable section

namespace Cert.Lib.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array cast to `[a]` reads, at `p`, the operand at `(p, 0)`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- An `[a, 1]` array broadcast to `[a, b]` reads, at `(p, q)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A maximum over the second axis of an `[a, b]` array, read at row `p`: the fold of `max` from the initial value's
    pattern over the row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  rw [Ideal.multiReduction_maximumf_single]
  refine congrArg (Finset.fold max _ · _) (funext fun k => congrArg src (funext fun c => Fin.ext ?_))
  match c with
  | ⟨0, _⟩ => rfl
  | ⟨1, _⟩ => rfl

end Cert.Lib.Column

end
-- ==== Proof.Payload.lean ====
/-
  The kernel body's stored value, read at an entry.

  At a grid point the body loads a `128 × 4096` block of activations, a `1024 × 4096` block of quantized weights and a
  `1 × 1024` row of channel factors, and stores a `128 × 1024` block. Entry `(p, q)` of what it stores is the product
  of the quantized row `p` of the activations with row `q` of the weights (both contracted on their last axis), times
  row `p`'s scale, times channel `q`'s factor: `Cert.Quant.entryK` of those two rows and that factor.
-/
import proofs.«116073_j63204738728221_1_alg».proof.Proof.Gen.KernelIdeal.Skeleton
import proofs.«116073_j63204738728221_1_alg».proof.Proof.Quant
import proofs.«116073_j63204738728221_1_alg».proof.Proof.LibLastAxisDot
import proofs.«116073_j63204738728221_1_alg».proof.Proof.LibColumn

noncomputable section

namespace Cert.KernelIdeal.Payload

open Idealize.ShloMosaic Idealize.ShloMosaic.ValueIdx Cert.KernelIdeal Cert.KernelIdeal.Gen Cert.Quant Cert.Lib.Column

/-- The column of row scales of an activation block: each row's absolute maximum plus the constant. -/
def scaleCol (v0 : Vec Ideal S128x4096 .f32) : FVec Ideal S128x1 .f32 :=
  addf (shapeCast S128x1 (multiReduction .maximumf [1] S128 (absf v0) 0xFF800000#32 reduces_S128x4096_S128 (.inl rfl) rfl)
      shapeCasts_S128_S128x1)
    (broadcast S128x1 (Scalar.ofBits .f32 0x322BCC77#32))

/-- The quantized activation block: scaled by `127 / scale`, clamped to `[-128, 127]`, rounded. -/
def aqBlk (v0 : Vec Ideal S128x4096 .f32) : FVec Ideal S128x4096 .bf16 :=
  truncf .bf16 (roundeven (minimumf (broadcast S128x4096 (Scalar.ofBits .f32 0x42FE0000#32))
    (maximumf (broadcast S128x4096 (Scalar.ofBits .f32 0xC3000000#32))
      (mulf v0 (broadcastTo S128x4096 (divf (broadcast S128x1 (Scalar.ofBits .f32 0x42FE0000#32)) (scaleCol v0))
        broadcasts_S128x1_S128x4096))))) bitsLt_bf16_f32

/-- The stored value over those two named pieces. -/
theorem pay_eq (v0 : Vec Ideal S128x4096 .f32) (v17 : Vec Ideal S1024x4096 .bf16) (v20 : Vec Ideal S1x1024 .f32) :
    k0_pay1 (F := Ideal) v0 v17 v20
      = mulf (mulf (@matmul Ideal _ S128x4096 S1024x4096 S128x1024 .bf16 .bf16 dot_S128x4096_S1024x4096_S128x1024_1_1_0_0_n_n none
            (aqBlk v0) v17 (constant S128x1024 .f32 0x00000000#32))
          (broadcastTo S128x1024 (scaleCol v0) broadcasts_S128x1_S128x1024))
        (broadcastTo S128x1024 v20 broadcasts_S1x1024_S128x1024) := by
  unfold k0_pay1
  simp only [shapeCast_self]
  rfl

/-- A block's maximum over its second axis, at row `p`: the fold of `max` from `-∞` over the row. -/
theorem rowMax_blk (src : FVec Ideal S128x4096 .f32) (p : Fin 128) :
    multiReduction .maximumf [1] S128 src 0xFF800000#32 reduces_S128x4096_S128 (.inl rfl) rfl (ix1 p)
      = (Finset.univ : Finset (Fin 4096)).fold max NegInf (fun k => src (ix2 p k)) :=
  rowMax_apply (a := 128) (b := 4096) src 0xFF800000#32 reduces_S128x4096_S128 (.inl rfl) rfl p

/-- Row `p` of the scale column is the scale of row `p` of the block. -/
theorem scaleCol_apply (v0 : Vec Ideal S128x4096 .f32) (p : Fin 128) (u : Fin 1) :
    scaleCol v0 (ix2 p u) = rowScale (fun k : Fin 4096 => v0 (ix2 p k)) := by
  unfold scaleCol rowScale
  rw [addf_apply, shapeCast_a_a1_apply, broadcast_apply, rowMax_blk]
  rfl

/-- Entry `(p, k)` of the quantized block is the quantized entry `k` of row `p`. -/
theorem aqBlk_apply (v0 : Vec Ideal S128x4096 .f32) (p : Fin 128) (k : Fin 4096) :
    aqBlk v0 (ix2 p k) = actK (fun k : Fin 4096 => v0 (ix2 p k)) k := by
  unfold aqBlk actK
  rw [truncf_apply]
  show rnd (min C127 (max Cm128 (v0 (ix2 p k) * (broadcastTo S128x4096 (divf (broadcast S128x1 (Scalar.ofBits .f32 0x42FE0000#32)) (scaleCol v0))
    broadcasts_S128x1_S128x4096 (ix2 p k))))) = _
  rw [broadcastTo_a1_ab_apply, divf_apply, broadcast_apply, scaleCol_apply]
  rfl

/-- Entry `(p, q)` of the stored block. -/
theorem pay_apply (v0 : Vec Ideal S128x4096 .f32) (v17 : Vec Ideal S1024x4096 .bf16) (v20 : Vec Ideal S1x1024 .f32)
    (p : Fin 128) (q : Fin 1024) :
    k0_pay1 (F := Ideal) v0 v17 v20 (ix2 p q)
      = entryK (fun k : Fin 4096 => v0 (ix2 p k)) (fun k : Fin 4096 => v17 (ix2 q k)) (v20 (ix2 (0 : Fin 1) q)) := by
  rw [pay_eq, mulf_apply, mulf_apply, broadcastTo_1b_ab_apply, broadcastTo_a1_ab_apply, scaleCol_apply]
  unfold entryK
  refine congrArg (fun z : EReal => z * v20 (ix2 (0 : Fin 1) q))
    (congrArg (fun z : EReal => z * rowScale (fun k : Fin 4096 => v0 (ix2 p k))) ?_)
  refine (Cert.Lib.LastAxisDot.matmul_zero_apply (M := 128) (K := 4096) (N := 1024) none (aqBlk v0) v17 p q).trans ?_
  exact Finset.sum_congr rfl fun k _ => by rw [aqBlk_apply]

end Cert.KernelIdeal.Payload

end
-- ==== Proof.KernelValue.lean ====
/-
  The kernel's output array after the run, as one function of the three arrays the region reads.

  The grid has a point per pair (column tile of 1024 channels, row tile of 128 rows). At a point the body reads the row
  tile of the activations, the column tile's rows of the quantized weights and the column tile's channel factors, and
  stores the `128 × 1024` tile of the output at (row tile, column tile). Entry `(r, o)` of the stored tile depends only on
  row `r` of the activations, row `o` of the weights and channel `o`'s factor, so every tile is a restriction of one
  whole-array function; the tiles cover the `8192 × 4096` array, which therefore ends holding that function.
-/
import proofs.«116073_j63204738728221_1_alg».proof.Proof.Gen.KernelIdeal.Frame
import proofs.«116073_j63204738728221_1_alg».proof.Proof.Payload
import Idealize.ShloMosaic.Lib.Pipeline.Value
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.Quant Cert.KernelIdeal.Payload
open Idealize.ShloMosaic.Pipeline (Dat Cfg Window)

variable (m : (ℓ : Loc nD τ sig) → Buf (Elt Ideal) ℓ) (ρ : Dev nD → PrngReg)

/-- The output as one function of the activations (`8192 × 4096`), the quantized weights (`4096 × 4096`) and the row of
    channel factors: entry `(r, o)` from row `r`, row `o` and channel `o`. -/
def Gout (X : S8192x4096.Idx → EReal) (Wq : S4096x4096.Idx → EReal) (Sa : S1x4096.Idx → EReal) : S8192x4096.Idx → EReal :=
  fun j => entryK (fun k : Fin 4096 => X (ix2 (j 0 : Fin 8192) k)) (fun k : Fin 4096 => Wq (ix2 (j 1 : Fin 4096) k))
    (Sa (ix2 (0 : Fin 1) (j 1 : Fin 4096)))

theorem hz : (![0, 0] : Fin 2 → Nat) = fun _ => 0 := funext fun a => by fin_cases a <;> rfl

/-- The index maps, decided over the grid: the activations tile moves with the output's row tile, the weights and
    channel-factor tiles with its column tile, and the tile indices stay in their ranges. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 63
    ∧ win0_3.index t (1 : Fin 2) ≤ 3 :=
  (by decide +kernel : ∀ t : Fin grid0.N, _)

/-- Every (row tile, column tile) pair is some point's. -/
theorem idx_onto : ∀ (q0 : Fin 64) (q1 : Fin 4), ∃ t : Fin cfg0.N, win0_3.index t = ![q0.val, q1.val] :=
  (by decide +kernel : ∀ (q0 : Fin 64) (q1 : Fin 4), ∃ t : Fin grid0.N, win0_3.index t = ![q0.val, q1.val])

/-- What point `t` writes back is tile `t` of `Gout` of the arrays the region finds. -/
theorem flushed_eq (c : Dev nD) (t : Fin cfg0.N) :
    (dats m 0 c).flushed 3 t
      = ((cfg0.win 3).blk t).view.read (Elt Ideal) (Gout (V m c main_v17) (V m c main_v11) (V m c main_v16)) := by
  show (cfg0.win 3).cut (grid0.coords t) ((dats m 0 c).after 3 t) = _
  rw [after0_3]
  unfold out0_3
  rw [View.canon_unit_zero hz]
  simp only [View.ld_unit_zero (S := S128x4096) hz, View.ld_unit_zero (S := S1024x4096) hz, View.ld_unit_zero (S := S1x1024) hz]
  obtain ⟨e0, e1, e2, e3, e4, e5, e6, e7⟩ := idx_facts t
  funext j
  obtain ⟨p, q, rfl⟩ : ∃ (p : Fin 128) (q : Fin 1024), j = ix2 p q := ⟨j 0, j 1, eq_ix2 j⟩
  show k0_pay1 (F := Ideal) (iblk m c 0 t) (iblk m c 1 t) (iblk m c 2 t) (ix2 p q)
    = Gout (V m c main_v17) (V m c main_v11) (V m c main_v16) (((cfg0.win 3).blk t).view.emb (ix2 p q))
  refine (pay_apply (iblk m c 0 t) (iblk m c 1 t) (iblk m c 2 t) p q).trans ?_
  unfold Gout
  have hx : (fun k : Fin 4096 => iblk m c 0 t (ix2 p k))
      = fun k : Fin 4096 => V m c main_v17 (ix2 ((((cfg0.win 3).blk t).view.emb (ix2 p q)) 0 : Fin 8192) k) := by
    funext k
    show V m c main_v17 (((cfg0.win 0).blk t).view.emb (ix2 p k)) = _
    refine congrArg (V m c main_v17) (funext fun a => Fin.ext ?_)
    match a with
    | ⟨0, _⟩ => show win0_0.index t (0 : Fin 2) * 128 + 1 * p.val = win0_3.index t (0 : Fin 2) * 128 + 1 * p.val; omega
    | ⟨1, _⟩ => show win0_0.index t (1 : Fin 2) * 4096 + 1 * k.val = k.val; omega
  have hw : (fun k : Fin 4096 => iblk m c 1 t (ix2 q k))
      = fun k : Fin 4096 => V m c main_v11 (ix2 ((((cfg0.win 3).blk t).view.emb (ix2 p q)) 1 : Fin 4096) k) := by
    funext k
    show V m c main_v11 (((cfg0.win 1).blk t).view.emb (ix2 q k)) = _
    refine congrArg (V m c main_v11) (funext fun a => Fin.ext ?_)
    match a with
    | ⟨0, _⟩ => show win0_1.index t (0 : Fin 2) * 1024 + 1 * q.val = win0_3.index t (1 : Fin 2) * 1024 + 1 * q.val; omega
    | ⟨1, _⟩ => show win0_1.index t (1 : Fin 2) * 4096 + 1 * k.val = k.val; omega
  have hs : iblk m c 2 t (ix2 (0 : Fin 1) q)
      = V m c main_v16 (ix2 (0 : Fin 1) ((((cfg0.win 3).blk t).view.emb (ix2 p q)) 1 : Fin 4096)) := by
    show V m c main_v16 (((cfg0.win 2).blk t).view.emb (ix2 (0 : Fin 1) q)) = _
    refine congrArg (V m c main_v16) (funext fun a => Fin.ext ?_)
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega
  rw [hx, hw, hs]

/-- An index of the output array is in point `t`'s tile iff each coordinate is in the tile's range on its axis. -/
theorem mem_blk (t : Fin cfg0.N) (i : S8192x4096.Idx) :
    i ∈ ((cfg0.win 3).blk t).view.set ↔ ∀ a : Fin 2, win0_3.index t a * S128x1024.size a ≤ (i a).val
      ∧ (i a).val < win0_3.index t a * S128x1024.size a + S128x1024.size a := by
  show i ∈ ((View.whole main_v18).slice (win0_3.rect t)).set ↔ _
  rw [View.set_slice_whole, Rect.mem_set_unit]
  exact Iff.rfl

/-- The tiles cover the output array: the point of row tile `r / 128` and column tile `o / 1024` covers `(r, o)`. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 128, by omega⟩ ⟨(i 1).val / 1024, by omega⟩
  have q0 : win0_3.index t (0 : Fin 2) = (i 0).val / 128 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 1024 ≤ (i 1).val ∧ (i 1).val < win0_3.index t (1 : Fin 2) * 1024 + 1024; omega

/-- The output array after the run. -/
theorem final (c : Dev nD) :
    (dats m 0 c).arrAt 3 cfg0.N = Gout (V m c main_v17) (V m c main_v11) (V m c main_v16) :=
  (dats m 0 c).arrAt_eq_of_cover 3 (Gout (V m c main_v17) (V m c main_v11) (V m c main_v16))
    (fun t _ => flushed_eq m c t) cover

/-- The result array: after the region the output array is reshaped to `4 × 2048 × 4096`. -/
theorem tail_result (c : Dev nD) :
    (Pipeline.afterTail₀ cfgs (dats m) 0 (V0 m) [hostOps1] c main_v19 : S4x2048x4096.Idx → EReal)
      = shapeCast S4x2048x4096 (Gout (V m c main_v17) (V m c main_v11) (V m c main_v16)) shapeCasts_S8192x4096_S4x2048x4096 := by
  unfold Pipeline.afterTail₀
  show StableHlo.after hostOps1 _ (Proc.devRef .tc main_v19) = _
  after_results
  have hw := Pipeline.withArrays_arr spec0 launch0.win.arr_inj c (V0 m c) (fun w => (dats m 0 c).arrAt w cfg0.N) 3
  exact congrArg (fun A : S8192x4096.Idx → EReal => shapeCast S4x2048x4096 A shapeCasts_S8192x4096_S4x2048x4096)
    (hw.trans (final m c))

/-- The run, with the result named: every weakly fair execution terminates with the result array at the reshaped
    `Gout` of the arrays the region found, and the arguments unchanged. -/
theorem run : θ_run defs (onTc (τ := τ) (main (F := Ideal))) ⟨m, fun _ => 0, ρ⟩ (fun r => ∀ c : Dev nD,
      r.2.mem ((c.tc : Thread nD τ).loc main_v19)
        = shapeCast S4x2048x4096 (Gout (V m c main_v17) (V m c main_v11) (V m c main_v16)) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v19 (Pipeline.mem_restRefs_of main_v19 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.HostPrefix.lean ====
/-
  What the region finds in its three input arrays, as functions of the program's arguments.

  Before the region the host operations reshape the activations `x` to `8192 × 4096`, compute the quantized weights —
  each weight divided by its row's scale (the mean absolute value of the row plus a constant), rounded, clamped to
  `[-1, 1]` — and the row of channel factors `(weight scale · α) / 127`. The weight scale and the quantized weights are
  the same operations the reference program applies to the same argument, so they are stated as the reference's own
  stage functions; the narrowing of the quantized weights to a shorter float format is the identity on extended reals.
-/
import proofs.«116073_j63204738728221_1_alg».proof.Proof.Gen.KernelIdeal.Frame
import proofs.«116073_j63204738728221_1_alg».proof.Proof.Gen.ReferenceIdeal.Read
import Idealize.ShloMosaic.Lib.StableHlo.Run

noncomputable section

namespace Cert.KernelIdeal.Prefix

open Idealize.ShloMosaic Idealize.ShloMosaic.TcCoe Idealize.SL.Sem Cert.KernelIdeal Cert.KernelIdeal.Gen

variable (m : (ℓ : Loc nD τ sig) → Buf (Elt Ideal) ℓ)

/-- The row of channel factors as a function of the weights and `α`: `(weight scale · α) / 127`, as a `1 × 4096` row. -/
def saRow (w : S4096x4096.Idx → EReal) (al : S4096.Idx → EReal) : S1x4096.Idx → EReal :=
  shapeCast S1x4096 (Host.divf (mulf (Cert.ReferenceIdeal.Read.val_main_v27 (F := Ideal) w) al)
    (broadcastInDim S4096 ![] bcast_S_S4096 (constant (F := Ideal) S_ .f32 0x42FE0000#32))) shapeCasts_S4096_S1x4096

/-- The activations window's array is `x` reshaped to `8192 × 4096`. -/
theorem V_v17 (c : Dev nD) : (V m c main_v17 : S8192x4096.Idx → EReal)
    = shapeCast S8192x4096 (m ((c : Thread nD τ).loc main_arg0)) shapeCasts_S4x2048x4096_S8192x4096 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The weights window's array is the quantized weights (rounded and clamped scaled weights). -/
theorem V_v11 (c : Dev nD) : (V m c main_v11 : S4096x4096.Idx → EReal)
    = Cert.ReferenceIdeal.Read.val_main_v10 (F := Ideal) (m ((c : Thread nD τ).loc main_arg1)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The channel factors window's array is the row of channel factors. -/
theorem V_v16 (c : Dev nD) : (V m c main_v16 : S1x4096.Idx → EReal)
    = saRow (m ((c : Thread nD τ).loc main_arg1)) (m ((c : Thread nD τ).loc main_arg2)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

end Cert.KernelIdeal.Prefix

end
-- ==== Proof.WeightScale.lean ====
/-
  The scale of a row of weights, and the scaled weights, are real.

  A weight row's scale is the mean of the entries' absolute values — their sum from zero, divided by `4096` — plus a
  positive constant. For a row of real numbers the sum of absolute values is a nonnegative real, so the scale is a
  positive real and every weight divided by it is a real number.
-/
import proofs.«116073_j63204738728221_1_alg».proof.Proof.Quant

noncomputable section

namespace Cert.Quant

open Idealize.ShloMosaic

/-- The absolute value of a real is a nonnegative real. -/
theorem abs_real {x : EReal} (hx : IsReal x) : ∃ r : ℝ, 0 ≤ r ∧ max x (-x) = (r : EReal) := by
  obtain ⟨r, hr⟩ := hx
  refine ⟨max r (-r), le_max_iff.2 (by rcases le_total 0 r with h | h; exact Or.inl h; exact Or.inr (by linarith)), ?_⟩
  rw [hr, ← EReal.coe_neg]; exact (EReal.coe_strictMono.monotone.map_max).symm

/-- A finite sum of absolute values of reals is a nonnegative real. -/
theorem sum_abs_real {n : Nat} (wr : Fin n → EReal) (hw : ∀ k, IsReal (wr k)) (s : Finset (Fin n)) :
    ∃ r : ℝ, 0 ≤ r ∧ (∑ k ∈ s, max (wr k) (-(wr k))) = (r : EReal) := by
  induction s using Finset.induction_on with
  | empty => exact ⟨0, le_rfl, by simp⟩
  | insert a s ha ih =>
    obtain ⟨r, hr0, hr⟩ := ih
    obtain ⟨t, ht0, ht⟩ := abs_real (hw a)
    exact ⟨t + r, by linarith, by rw [Finset.sum_insert ha, hr, ht, EReal.coe_add]⟩

/-- A weight row's scale: the sum of absolute values from the zero pattern, over `4096`, plus the constant. -/
def wScale {n : Nat} (wr : Fin n → EReal) : EReal :=
  Ideal.div (Ideal.ofBits .f32 0x00000000#32 + ∑ k, max (wr k) (-(wr k))) C4096 + Eps

/-- The scale of a row of real weights is a positive real. -/
theorem wScale_pos {n : Nat} (wr : Fin n → EReal) (hw : ∀ k, IsReal (wr k)) : ∃ s : ℝ, 0 < s ∧ wScale wr = (s : EReal) := by
  obtain ⟨e, he, hE⟩ := eps_pos
  obtain ⟨r, hr0, hr⟩ := sum_abs_real wr hw Finset.univ
  refine ⟨r / 4096 + e, by positivity, ?_⟩
  unfold wScale
  rw [hr, Ideal.ofBits_zero_f32, zero_add, c4096_eq, div_coe_coe r (by norm_num : (4096 : ℝ) ≠ 0), hE, ← EReal.coe_add]

/-- A real weight divided by the scale of a row of real weights is real. -/
theorem div_wScale_real {n : Nat} {a : EReal} (ha : IsReal a) (wr : Fin n → EReal) (hw : ∀ k, IsReal (wr k)) :
    IsReal (Ideal.div a (wScale wr)) := by
  obtain ⟨s, hs, hS⟩ := wScale_pos wr hw
  obtain ⟨r, rfl⟩ := ha
  rw [hS, div_coe_coe r (ne_of_gt hs)]
  exact IsReal.coe _

end Cert.Quant

end
-- ==== Proof.RefEntry.lean ====
/-
  The reference's result, read at an entry.

  Entry `(b, s, o)` of the reference's result is the product of the straight-through quantized activation row `(b, s)`
  with the straight-through quantized weight row `o`, times (weight scale of `o` · scale of row `(b, s)`) / 127, times
  `α o`: `Cert.Quant.entryR` of row `(b, s)` of the activations, row `o` of the scaled and of the quantized weights, the
  weight scale of `o` and `α o`. A row's scale is its maximum absolute value, a maximum over the last axis from `-∞`,
  plus the constant.
-/
import proofs.«116073_j63204738728221_1_alg».proof.Proof.Gen.ReferenceIdeal.Read
import proofs.«116073_j63204738728221_1_alg».proof.Proof.Quant
import proofs.«116073_j63204738728221_1_alg».proof.Proof.WeightScale

set_option maxRecDepth 16384

noncomputable section

namespace Cert.ReferenceIdeal.RefEntry

open Idealize.ShloMosaic Idealize.ShloMosaic.ValueIdx Cert.ReferenceIdeal Cert.ReferenceIdeal.Gen Cert.ReferenceIdeal.Read Cert.Quant

/-- The maximum of row `(b, s)`'s absolute values, from `-∞`. -/
theorem rowMax_apply (x : S4x2048x4096.Idx → EReal) (b : Fin 4) (s : Fin 2048) :
    val_main_v14 (F := Ideal) x (ix2 b s)
      = (Finset.univ : Finset (Fin 4096)).fold max NegInf (fun k => max (x (ix3 b s k)) (-(x (ix3 b s k)))) := by
  have hR : S4x2048x4096.Reduces [2] S4x2048 := by decide
  unfold val_main_v14
  refine (Host.reduce_eq_fold_single (FloatOps.maximumf (F := Ideal) (φ := .f32)) (val_main_v13 (F := Ideal) x) (val_main_cst_4 (F := Ideal))
    reducesTo_S4x2048x4096_S4x2048_d2 hR h_S_ (ix2 b s)).trans ?_
  show (Finset.univ : Finset (Fin 4096)).fold max NegInf
      (fun k => max (x (hR.lift (ix2 b s) k)) (-(x (hR.lift (ix2 b s) k)))) = _
  have hl : ∀ k : Fin 4096, hR.lift (ix2 b s) k = ix3 b s k := fun k => funext fun a => Fin.ext (by
    match a with
    | ⟨0, _⟩ => rfl
    | ⟨1, _⟩ => rfl
    | ⟨2, _⟩ => rfl)
  exact congrArg (fun f : Fin 4096 → EReal => (Finset.univ : Finset (Fin 4096)).fold max NegInf f)
    (funext fun k => by rw [hl k])

/-- The scale of row `(b, s)`. -/
theorem scale_apply (x : S4x2048x4096.Idx → EReal) (b : Fin 4) (s : Fin 2048) (u : Fin 1) :
    val_main_v17 (F := Ideal) x (ix3 b s u) = rowScale (fun k : Fin 4096 => x (ix3 b s k)) := by
  have e15 : idx_main_v15 (ix3 b s u) = ix2 b s := funext fun a => Fin.ext (by
    match a with
    | ⟨0, _⟩ => rfl
    | ⟨1, _⟩ => rfl)
  rw [val_main_v17_apply, val_main_v15_apply, val_main_v16_apply, val_main_cst_5_apply, e15, rowMax_apply]
  rfl

/-- The straight-through quantized activation at `(b, s, k)`. -/
theorem act_apply (x : S4x2048x4096.Idx → EReal) (b : Fin 4) (s : Fin 2048) (k : Fin 4096) :
    val_main_v25 (F := Ideal) x (ix3 b s k) = actR (fun k : Fin 4096 => x (ix3 b s k)) k := by
  have e18 : idx_main_v18 (ix3 b s k) = ix3 b s (0 : Fin 1) := funext fun a => Fin.ext (by
    match a with
    | ⟨0, _⟩ => rfl
    | ⟨1, _⟩ => rfl
    | ⟨2, _⟩ => rfl)
  have h21 : val_main_v21 (F := Ideal) x (ix3 b s k)
      = Ideal.div (x (ix3 b s k)) (rowScale (fun k : Fin 4096 => x (ix3 b s k))) * C127 := by
    rw [val_main_v21_apply, val_main_v19_apply, val_main_v18_apply, e18, scale_apply, val_main_v20_apply, val_main_cst_6_apply]
    rfl
  rw [val_main_v25_apply, val_main_v24_apply, val_main_v23_apply, val_main_v22_apply, val_main_call2_v4_apply,
    val_main_call2_v3_apply, val_main_cst_8_apply, val_main_call2_v2_apply, val_main_call2_v1_apply, val_main_call2_v0_apply,
    val_main_cst_7_apply, h21]
  rfl

/-- The straight-through quantized weight at `(o, k)`. -/
theorem weight_apply (w : S4096x4096.Idx → EReal) (i : S4096x4096.Idx) :
    val_main_v12 (F := Ideal) w i
      = val_main_v8 (F := Ideal) w i + (val_main_v10 (F := Ideal) w i - val_main_v8 (F := Ideal) w i) := rfl

/-- Entry `(b, s, o)` of the result. -/
theorem result_apply (x : S4x2048x4096.Idx → EReal) (w : S4096x4096.Idx → EReal) (al : S4096.Idx → EReal)
    (b : Fin 4) (s : Fin 2048) (o : Fin 4096) :
    val_main_v37 (F := Ideal) x w al (ix3 b s o)
      = entryR (fun k : Fin 4096 => x (ix3 b s k)) (fun k : Fin 4096 => val_main_v8 (F := Ideal) w (ix2 o k))
          (fun k : Fin 4096 => val_main_v10 (F := Ideal) w (ix2 o k)) (val_main_v6 (F := Ideal) w (ix2 o (0 : Fin 1))) (al (ix1 o)) := by
  have el : ∀ k : Fin 4096, lidx_main_v26 (ix3 b s o) k = ix3 b s k := fun k => funext fun a => Fin.ext (by
    match a with
    | ⟨0, _⟩ => rfl
    | ⟨1, _⟩ => rfl
    | ⟨2, _⟩ => rfl)
  have er : ∀ k : Fin 4096, ridx_main_v26 (ix3 b s o) k = ix2 o k := fun k => funext fun a => Fin.ext (by
    match a with
    | ⟨0, _⟩ => rfl
    | ⟨1, _⟩ => rfl)
  have e27 : idx_main_v27 (idx_main_v28 (idx_main_v29 (ix3 b s o))) = ix2 o (0 : Fin 1) := funext fun a => Fin.ext (by
    match a with
    | ⟨0, _⟩ => exact Nat.div_one _
    | ⟨1, _⟩ => rfl)
  have e30 : idx_main_v30 (ix3 b s o) = ix3 b s (0 : Fin 1) := funext fun a => Fin.ext (by
    match a with
    | ⟨0, _⟩ => rfl
    | ⟨1, _⟩ => rfl
    | ⟨2, _⟩ => rfl)
  have e35 : idx_main_v35 (idx_main_v36 (ix3 b s o)) = ix1 o := funext fun a => Fin.ext (by
    match a with
    | ⟨0, _⟩ => rfl)
  rw [val_main_v37_apply, val_main_v34_apply, val_main_v26_apply, val_main_v33_apply, val_main_v31_apply, val_main_v29_apply,
    val_main_v28_apply, val_main_v27_apply, e27, val_main_v30_apply, e30, scale_apply, val_main_v32_apply, val_main_cst_9_apply,
    val_main_v36_apply, val_main_v35_apply, e35]
  simp only [el, er, act_apply, weight_apply]
  rfl

/-- The weight scale of row `o`: the mean of the row's absolute values plus the constant. -/
theorem wscale_apply (w : S4096x4096.Idx → EReal) (o : Fin 4096) (u : Fin 1) :
    val_main_v6 (F := Ideal) w (ix2 o u) = wScale (fun k : Fin 4096 => w (ix2 o k)) := by
  have e2 : idx_main_v2 (ix2 o u) = ix1 o := funext fun a => Fin.ext (by
    match a with
    | ⟨0, _⟩ => rfl)
  have e1 : ∀ k : Fin 4096, idx_main_v1 (ix1 o) k = ix2 o k := fun k => funext fun a => Fin.ext (by
    match a with
    | ⟨0, _⟩ => rfl
    | ⟨1, _⟩ => rfl)
  rw [val_main_v6_apply, val_main_v4_apply, val_main_v2_apply, e2, val_main_v1_apply, val_main_v3_apply, val_main_cst_0_apply,
    val_main_v5_apply, val_main_cst_1_apply, val_main_cst_apply]
  have hs : (∑ k : Fin 4096, val_main_v0 (F := Ideal) w (idx_main_v1 (ix1 o) k))
      = ∑ k : Fin 4096, max (w (ix2 o k)) (-(w (ix2 o k))) :=
    Finset.sum_congr rfl fun k _ => by rw [e1 k]; rfl
  rw [hs]
  rfl

/-- The scaled weight at `(o, k)`: the weight over its row's scale. -/
theorem wn_apply (w : S4096x4096.Idx → EReal) (o k : Fin 4096) :
    val_main_v8 (F := Ideal) w (ix2 o k) = Ideal.div (w (ix2 o k)) (wScale (fun k : Fin 4096 => w (ix2 o k))) := by
  have e7 : idx_main_v7 (ix2 o k) = ix2 o (0 : Fin 1) := funext fun a => Fin.ext (by
    match a with
    | ⟨0, _⟩ => rfl
    | ⟨1, _⟩ => rfl)
  rw [val_main_v8_apply, val_main_v7_apply, e7, wscale_apply]
  rfl

end Cert.ReferenceIdeal.RefEntry

end
-- ==== Proof.Bridge.lean ====
/-
  The kernel's result is the reference's result, entry by entry, on real inputs.

  The kernel's result at `(b, s, o)` is entry `(2048 b + s, o)` of its `8192 × 4096` output: the product of the quantized
  row `(b, s)` of the activations with row `o` of the quantized weights, times the row's scale, times
  `(weight scale of o · α o) / 127`. The reference's is the same product in straight-through form, times
  `(weight scale of o · row scale) / 127`, times `α o`. With every activation and every weight real, the row scale and the
  weight scale are positive reals, the straight-through forms collapse, and the two groupings of the scales agree
  (`Cert.Quant.entry_eq`).
-/
import proofs.«116073_j63204738728221_1_alg».proof.Proof.KernelValue
import proofs.«116073_j63204738728221_1_alg».proof.Proof.HostPrefix
import proofs.«116073_j63204738728221_1_alg».proof.Proof.RefEntry
import proofs.«116073_j63204738728221_1_alg».proof.Proof.WeightScale
import proofs.«116073_j63204738728221_1_alg».proof.Proof.LibColumn
import Idealize.ShloMosaic.Lib.ValueLayout

set_option maxRecDepth 16384

noncomputable section

namespace Cert.Bridge

open Idealize.ShloMosaic Idealize.ShloMosaic.ValueIdx Cert.Quant Cert.Lib.Column
open Cert.KernelIdeal Cert.KernelIdeal.Gen

/-- The kernel's result as a function of the three arguments: the output array of the reshaped activations, the
    quantized weights and the row of channel factors, reshaped to `4 × 2048 × 4096`. -/
def kres (x : S4x2048x4096.Idx → EReal) (w : S4096x4096.Idx → EReal) (al : S4096.Idx → EReal) : S4x2048x4096.Idx → EReal :=
  shapeCast S4x2048x4096
    (Cert.KernelIdeal.KValue.Gout (shapeCast S8192x4096 x shapeCasts_S4x2048x4096_S8192x4096)
      (Cert.ReferenceIdeal.Read.val_main_v10 (F := Ideal) w) (Cert.KernelIdeal.Prefix.saRow w al))
    shapeCasts_S8192x4096_S4x2048x4096

/-- Channel `o`'s factor: `(weight scale of o · α o) / 127`. -/
theorem saRow_apply (w : S4096x4096.Idx → EReal) (al : S4096.Idx → EReal) (o : Fin 4096) :
    Cert.KernelIdeal.Prefix.saRow w al (ix2 (0 : Fin 1) o)
      = Ideal.div (Cert.ReferenceIdeal.Read.val_main_v6 (F := Ideal) w (ix2 o (0 : Fin 1)) * al (ix1 o)) C127 := by
  have e27 : Cert.ReferenceIdeal.Read.idx_main_v27 (ix1 o) = ix2 o (0 : Fin 1) := funext fun a => Fin.ext (by
    match a with
    | ⟨0, _⟩ => exact Nat.div_one _
    | ⟨1, _⟩ => rfl)
  unfold Cert.KernelIdeal.Prefix.saRow
  rw [shapeCast_a_1a_apply]
  show Ideal.div (Cert.ReferenceIdeal.Read.val_main_v27 (F := Ideal) w (ix1 o) * al (ix1 o))
    (broadcastInDim S4096 ![] bcast_S_S4096 (constant (F := Ideal) S_ .f32 0x42FE0000#32) (ix1 o)) = _
  rw [broadcastInDim_apply _ bcast_S_S4096 _ (ix1 o) ix0 (fun a => a.elim0), Cert.ReferenceIdeal.Read.val_main_v27_apply, e27]
  rfl

/-- On real activations and weights the kernel's result is the reference's. -/
theorem kres_eq (x : S4x2048x4096.Idx → EReal) (w : S4096x4096.Idx → EReal) (al : S4096.Idx → EReal)
    (hx : ∀ i, IsReal (x i)) (hw : ∀ i, IsReal (w i)) :
    kres x w al = Cert.ReferenceIdeal.Read.val_main_v37 (F := Ideal) x w al := by
  funext i
  obtain ⟨b, s, o, rfl⟩ : ∃ (b : Fin 4) (s : Fin 2048) (o : Fin 4096), i = ix3 b s o := ⟨i 0, i 1, i 2, eq_ix3 i⟩
  have hb := b.isLt
  have hs := s.isLt
  rw [Cert.ReferenceIdeal.RefEntry.result_apply]
  unfold kres
  rw [shapeCast_apply _ shapeCasts_S8192x4096_S4x2048x4096 (ix3 b s o) (ix2 (⟨b.val * 2048 + s.val, by omega⟩ : Fin 8192) o)
    (by rw [Shape.rowMajor_val_two, Shape.rowMajor_val_three]; rfl)]
  have hrow : (fun k : Fin 4096 => shapeCast S8192x4096 x shapeCasts_S4x2048x4096_S8192x4096
        (ix2 (⟨b.val * 2048 + s.val, by omega⟩ : Fin 8192) k)) = fun k : Fin 4096 => x (ix3 b s k) :=
    funext fun k => shapeCast_apply x _ _ _ (by rw [Shape.rowMajor_val_two, Shape.rowMajor_val_three]; rfl)
  show entryK (fun k : Fin 4096 => shapeCast S8192x4096 x shapeCasts_S4x2048x4096_S8192x4096
        (ix2 (⟨b.val * 2048 + s.val, by omega⟩ : Fin 8192) k))
      (fun k : Fin 4096 => Cert.ReferenceIdeal.Read.val_main_v10 (F := Ideal) w (ix2 o k))
      (Cert.KernelIdeal.Prefix.saRow w al (ix2 (0 : Fin 1) o)) = _
  rw [hrow, saRow_apply]
  refine entry_eq (by norm_num) _ _ _ (fun k => hx _) (fun k => ?_) _ _
  rw [Cert.ReferenceIdeal.RefEntry.wn_apply]
  exact div_wScale_real (hw _) _ (fun k => hw _)

end Cert.Bridge

end
-- ==== Proof.lean ====
/-
  A linear layer with ternary weights and 8-bit activations: the tiled kernel and the reference compute the same
  extended reals on finite inputs.

  Both programs quantize the weights row by row — each weight over its row's scale (the mean absolute value plus a
  constant), rounded to the nearest integer and clamped to `[-1, 1]` — and the activations row by row: each activation
  times `127` over its row's scale (the maximum absolute value plus the constant), clamped to `[-128, 127]` and rounded.
  The kernel computes the product of the quantized rows tile by tile, `128` rows by `1024` channels at a grid point,
  and rescales each entry by the row scale and by `(weight scale · α) / 127`; the reference writes both quantizations in
  straight-through form `a + (q − a)`, forms the whole product, and rescales by `(weight scale · row scale) / 127` and
  then by `α`. Under the precondition every input entry is a real number, so every scale is a positive real, the
  straight-through forms collapse to the quantized values, the two spellings of the scaled activation are one real,
  and the two groupings of the scales agree because `127 ≠ 0`. The tiles cover the output, so the kernel's result array
  is that one function of the arguments, and it equals the reference's result entry by entry.

  The three frames are the generated ones (the reference's from its generated run); the idealization rewrote nothing.
-/
import proofs.«116073_j63204738728221_1_alg».proof.Defs
import proofs.«116073_j63204738728221_1_alg».proof.Proof.Gen.Kernel
import proofs.«116073_j63204738728221_1_alg».proof.Proof.Gen.Kernel.Skeleton
import proofs.«116073_j63204738728221_1_alg».proof.Proof.Gen.Kernel.Launch
import proofs.«116073_j63204738728221_1_alg».proof.Proof.Gen.Kernel.Points
import proofs.«116073_j63204738728221_1_alg».proof.Proof.Gen.Kernel.Frame
import proofs.«116073_j63204738728221_1_alg».proof.Proof.Gen.KernelIdeal
import proofs.«116073_j63204738728221_1_alg».proof.Proof.Gen.KernelIdeal.Skeleton
import proofs.«116073_j63204738728221_1_alg».proof.Proof.Gen.KernelIdeal.Launch
import proofs.«116073_j63204738728221_1_alg».proof.Proof.Gen.KernelIdeal.Points
import proofs.«116073_j63204738728221_1_alg».proof.Proof.Gen.KernelIdeal.Frame
import proofs.«116073_j63204738728221_1_alg».proof.Proof.Gen.ReferenceIdeal
import proofs.«116073_j63204738728221_1_alg».proof.Proof.Gen.ReferenceIdeal.Run
import proofs.«116073_j63204738728221_1_alg».proof.Proof.Gen.ReferenceIdeal.Read
import proofs.«116073_j63204738728221_1_alg».proof.Proof.Gen.Pre_finite_inputs
import proofs.«116073_j63204738728221_1_alg».proof.Proof.Finite
import proofs.«116073_j63204738728221_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the reference's function of the arguments: the reference by its run, the
    kernel because its output array is that function on real inputs. -/
theorem algebraic : Cert.algebraic_KernelIdeal_ReferenceIdeal := by
  intro m ρ m' ρ' hpre hagree
  refine ⟨fun c => Cert.ReferenceIdeal.Read.val_main_v37 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.KValue.run m ρ)
    obtain ⟨hx, hw, _⟩ := Cert.Finite.real_of_pre _ _ _ (hpre c)
    rw [Cert.KernelIdeal.Prefix.V_v17, Cert.KernelIdeal.Prefix.V_v11, Cert.KernelIdeal.Prefix.V_v16]
    exact Cert.Bridge.kres_eq _ _ _ hx hw
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v37_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
